-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x1, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S_, .i32⟩
  | .hbm, ⟨9, _⟩ => ⟨S33554432, .i32⟩
  | .hbm, ⟨10, _⟩ => ⟨S33554432, .i1⟩
  | .hbm, ⟨11, _⟩ => ⟨S33554432, .i1⟩
  | .hbm, ⟨12, _⟩ => ⟨S_, .f32⟩
  | .hbm, ⟨13, _⟩ => ⟨S_, .f32⟩
  | .hbm, ⟨14, _⟩ => ⟨S33554432, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S33554432, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What each control case of the kernel body leaves behind, as values.

  The body has three cases, told apart by the grid position: the first tile (the accumulator is reset, then updated),
  a middle tile (updated), the last tile (updated, then the result is written out). In every case the accumulator
  ends at the update's value computed from the two input tiles and from what the accumulator held when the update
  read it — the reset value in the first case, the previous tile's leftover otherwise. In the last case the output
  buffer ends at the final store's value computed from the accumulator as just updated.
-/
import proofs.«148448_j4002909520771_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First tile: the accumulator is the update over the reset value. -/
theorem acc_first (c : Dev nD) (i : grid0.Coords) (arg1 : Memref sig .tc .vmem S8192x128 .f32) (harg1 : arg1.IsWhole) (arg2 : Memref sig .tc .vmem S8192x128 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S8192x128 .f32) (x1 : Vec F S8192x128 .i32) :
    sout0_A_0 c i arg1 harg1 arg2 harg2 arg3 harg3 arg4 harg4 hc0 hc1 x0 x1 = k0_pay2 x0 x1 k0_pay1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, View.ld_unit_zero (S := S8192x128) hz]

/-- Middle tile: the accumulator is the update over what the tile before left. -/
theorem acc_middle (c : Dev nD) (i : grid0.Coords) (arg1 : Memref sig .tc .vmem S8192x128 .f32) (harg1 : arg1.IsWhole) (arg2 : Memref sig .tc .vmem S8192x128 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S8192x128 .f32) (x1 : Vec F S8192x128 .i32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread,
    View.ld_unit_zero (S := S8192x128) hz, View.ld_unit_zero (S := S1x1) hz]

/-- Last tile: the accumulator is again the update over what the tile before left, -/
theorem acc_last (c : Dev nD) (i : grid0.Coords) (arg1 : Memref sig .tc .vmem S8192x128 .f32) (harg1 : arg1.IsWhole) (arg2 : Memref sig .tc .vmem S8192x128 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x128 .f32) (x1 : Vec F S8192x128 .i32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread,
    View.ld_unit_zero (S := S8192x128) hz, View.ld_unit_zero (S := S1x1) hz]

/-- and the output buffer is the final store's value of that updated accumulator. -/
theorem out_last (c : Dev nD) (i : grid0.Coords) (arg1 : Memref sig .tc .vmem S8192x128 .f32) (harg1 : arg1.IsWhole) (arg2 : Memref sig .tc .vmem S8192x128 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x128 .f32) (x1 : Vec F S8192x128 .i32) (xs0 : Vec F S1x1 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readCov_unit_zero (S := S1x1) _ hz, View.readAt_eq_ld, harg1.read_unread, harg2.read_unread,
    harg4.read_unread, View.ld_unit_zero (S := S8192x128) hz, View.ld_unit_zero (S := S1x1) hz]

end Cert.KernelIdeal.Pieces

end
-- ==== Proof.Spec.lean ====
/-
  The mathematics of the weighted mean squared error, free of either program.

  One element contributes  w(p, t) · (p − t)²  with  w = 1 + (0.1 if the hard decision "p ≥ 0.5" disagrees with the
  label "t = 1", else 0).  The kernel sums these contributions tile by tile (32 tiles of 8192 × 128 elements, tile
  `k` holding the flat positions (8192·k + r)·128 + l) and divides the grand total by 2²⁵; the reference sums them
  over the flat array at once and divides by the same number.  Over the extended reals addition is commutative and
  associative, so the two totals are one sum: `sum_tiles`.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.WMse

open Idealize.ShloMosaic Idealize.ShloMosaic.ValueIdx

variable {F : FTy → Type} [FloatOps F]

/-- One element's contribution: the weight `1 + (0.1 or 0)` times the squared difference between the prediction and
    the label read as a float. The weight's extra tenth is chosen by the exclusive or of "p ≥ 0.5" and "t = 1". -/
def wl (p : F .f32) (t : BitVec 32) : F .f32 :=
  FloatOps.mulf
    (FloatOps.addf (FloatOps.ofBits .f32 0x3F800000#32)
      (Scalar.select (IntOp.xori (FloatOps.cmpf .oge p (FloatOps.ofBits .f32 0x3F000000#32)) (IntOp.cmpi .eq t 1#32))
        (FloatOps.ofBits .f32 0x3DCCCCCD#32) (FloatOps.ofBits .f32 0x00000000#32)))
    (FloatOps.mulf (FloatOps.subf p (FloatOps.sitofp .f32 t)) (FloatOps.subf p (FloatOps.sitofp .f32 t)))

/-- On one-bit words "exclusive or" is "not equal". -/
theorem xori_eq_ne (a b : BitVec 1) : IntOp.xori a b = IntOp.cmpi .ne a b := by
  revert a b; decide

/-- The same contribution with the disagreement spelt as an inequality of the two bits, as the reference spells it. -/
theorem wl_ne (p : F .f32) (t : BitVec 32) :
    FloatOps.mulf
      (FloatOps.addf (FloatOps.ofBits .f32 0x3F800000#32)
        (Scalar.select (IntOp.cmpi .ne (FloatOps.cmpf .oge p (FloatOps.ofBits .f32 0x3F000000#32)) (IntOp.cmpi .eq t 1#32))
          (FloatOps.ofBits .f32 0x3DCCCCCD#32) (FloatOps.ofBits .f32 0x00000000#32)))
      (FloatOps.mulf (FloatOps.subf p (FloatOps.sitofp .f32 t)) (FloatOps.subf p (FloatOps.sitofp .f32 t)))
    = wl p t := by
  unfold wl; rw [xori_eq_ne]

/-- The flat position of element (r, l) of tile `k`: (8192·k + r)·128 + l. -/
def flat (k : Fin 32) (y : (⟨2, ![8192, 128]⟩ : Shape).Idx) : (⟨1, ![33554432]⟩ : Shape).Idx :=
  ix1 ⟨(8192 * k.val + (y 0).val) * 128 + (y 1).val, by
    have h0 : (y 0).val < 8192 := (y 0).isLt
    have h1 : (y 1).val < 128 := (y 1).isLt
    have hk := k.isLt
    omega⟩

/-- A flat position is a tile, a row of the tile and a lane, and back. -/
def tileEquiv : Fin 32 × (Fin 8192 × Fin 128) ≃ Fin 33554432 where
  toFun q := ⟨(8192 * q.1.val + q.2.1.val) * 128 + q.2.2.val, by
    have := q.1.isLt; have := q.2.1.isLt; have := q.2.2.isLt; omega⟩
  invFun n := (⟨n.val / 1048576, by have := n.isLt; omega⟩, ⟨n.val / 128 % 8192, by omega⟩, ⟨n.val % 128, by omega⟩)
  left_inv q := by
    obtain ⟨k, r, l⟩ := q
    have := k.isLt; have := r.isLt; have := l.isLt
    refine Prod.ext (Fin.ext ?_) (Prod.ext (Fin.ext ?_) (Fin.ext ?_)) <;> dsimp only <;> omega
  right_inv n := by
    apply Fin.ext; dsimp only; have := n.isLt; omega

/-- THE LAW: the thirty-two tile sums add up to the sum over the flat array, in any commutative monoid. -/
theorem sum_tiles {M : Type*} [AddCommMonoid M] (g : (⟨1, ![33554432]⟩ : Shape).Idx → M) :
    ∑ k : Fin 32, ∑ y : (⟨2, ![8192, 128]⟩ : Shape).Idx, g (flat k y) = ∑ i, g i := by
  rw [← Equiv.sum_comp (idxEquiv1 (n := 33554432)).symm g, ← Equiv.sum_comp tileEquiv, Fintype.sum_prod_type]
  refine Finset.sum_congr rfl fun k _ => ?_
  rw [sum_idx2, Fintype.sum_prod_type]
  rfl

end Cert.WMse

end
-- ==== Proof.Payload.lean ====
/-
  What the kernel body's three stores write, read over the extended reals.

  The reset writes zero. The update writes, at the accumulator's one position, the accumulator's previous value plus
  the sum over the 8192 × 128 tile of every element's contribution (the tile is first viewed as 1 × 8192 × 128 and
  reduced over its last two axes: one number, the sum over all of the tile's positions in whatever order). The final
  store writes the accumulator divided by 2²⁵.
-/
import proofs.«148448_j4002909520771_1_alg».proof.Proof.Gen.KernelIdeal.Skeleton
import proofs.«148448_j4002909520771_1_alg».proof.Proof.Spec
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.WMse
/-- The reset value is zero at the accumulator's position. -/
theorem reset_apply (y : S1x1.Idx) : k0_pay1 (F := Ideal) y = 0 := by
  unfold k0_pay1
  simp only [shapeCast_self]
  exact Ideal.ofBits_zero_f32

/-- The tile viewed as 1 × 8192 × 128, reduced over its last two axes and read at the one position left, is the
    sum over all of the tile's positions. -/
theorem tile_total (w : FVec Ideal S8192x128 .f32) (y : S1x1.Idx) :
    broadcast S1x1 (extractAt ![0, 0, 0] (shapeCast S1x1x1 (multiReduction .add [1, 2] S1
      (shapeCast S1x8192x128 w Facts₀.shapeCasts_S8192x128_S1x8192x128) 0x00000000#32 Facts₀.reduces_S1x8192x128_S1 (.inl rfl) rfl)
      Facts₀.shapeCasts_S1_S1x1x1) Facts₀.inpos_S1x1x1_p0_0_0) y = ∑ j : S8192x128.Idx, w j := by
  refine (Ideal.multiReduction_add_total (shapeCast S1x8192x128 w Facts₀.shapeCasts_S8192x128_S1x8192x128) 0x00000000#32
    Facts₀.reduces_S1x8192x128_S1 (fun b => by fin_cases b; rfl) (.inl rfl) rfl
    (Shape.reshapeEquiv Facts₀.shapeCasts_S1_S1x1x1 fun a => ⟨![0, 0, 0] a, Facts₀.inpos_S1x1x1_p0_0_0 a⟩)).trans ?_
  exact Equiv.sum_comp (Shape.reshapeEquiv Facts₀.shapeCasts_S8192x128_S1x8192x128) w

/-- The contributions of a tile's elements, as the body computes them before summing. -/
theorem contrib_apply (x0 : FVec Ideal S8192x128 .f32) (x1 : IVec S8192x128 32) (j : S8192x128.Idx) :
    mulf (addf (broadcast S8192x128 (Scalar.ofBits (F := Ideal) .f32 0x3F800000#32))
        (select (xori (cmpf .oge x0 (broadcast S8192x128 (Scalar.ofBits (F := Ideal) .f32 0x3F000000#32))) (cmpi .eq x1 (broadcast S8192x128 1#32)))
          (broadcast S8192x128 (Scalar.ofBits (F := Ideal) .f32 0x3DCCCCCD#32)) (broadcast S8192x128 (Scalar.ofBits (F := Ideal) .f32 0x00000000#32))))
      (mulf (subf x0 (sitofp .f32 x1)) (subf x0 (sitofp .f32 x1))) j
    = wl (F := Ideal) (x0 j) (x1 j) := rfl

/-- The update: previous value plus the tile's total. -/
theorem update_apply (x0 : Vec Ideal S8192x128 .f32) (x1 : Vec Ideal S8192x128 .i32) (xs : Vec Ideal S1x1 .f32) (y : S1x1.Idx) :
    k0_pay2 (F := Ideal) x0 x1 xs y = xs y + ∑ j : S8192x128.Idx, wl (F := Ideal) (x0 j) (x1 j) := by
  unfold k0_pay2
  simp only [shapeCast_self]
  show xs y + _ = xs y + _
  refine congrArg (xs y + ·) ?_
  refine (tile_total _ y).trans ?_
  exact Finset.sum_congr rfl fun j _ => contrib_apply x0 x1 j

/-- The final store: the accumulator divided by 2²⁵. -/
theorem final_apply (v : Vec Ideal S1x1 .f32) (y : S1x1.Idx) :
    k0_pay3 (F := Ideal) v y = FloatOps.hostDivf (v y) (FloatOps.ofBits .f32 0x4C000000#32) := rfl

end Cert.KernelIdeal.Payload
end
-- ==== Proof.Blocks.lean ====
/-
  The input tiles as the kernel finds them.

  Before the kernel runs, the two flat arguments (2²⁵ numbers each) are viewed as 262144 rows of 128 lanes; grid
  position `k` is handed rows 8192·k … 8192·k + 8191. So entry (r, l) of the tile at position `k` is the
  argument's entry at the flat position (8192·k + r)·128 + l — the same row-major position on both sides.
-/
import proofs.«148448_j4002909520771_1_alg».proof.Proof.Gen.KernelIdeal.Frame
import proofs.«148448_j4002909520771_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.WMse

variable {F : FTy → Type} [FloatOps F]
variable (m : (ℓ : Loc nD τ sig) → Buf (Elt F) ℓ)

/-- Grid position `k` is handed row block `k`, lane block 0, of either input: decided over the 32 positions. -/
theorem block_index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem block_index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The predictions as the kernel finds them: the flat argument viewed as rows of 128. -/
theorem rows_pred (c : Dev nD) : (V m c main_v0 : S262144x128.Idx → Elt F .f32)
    = shapeCast S262144x128 (m ((c : Thread nD τ).loc main_arg0)) Facts₀.shapeCasts_S33554432_S262144x128 := by
  show StableHlo.after hostOps0 (fun b => m (c, b)) (Proc.devRef .tc main_v0) = _
  after_results
  rfl

/-- The labels as the kernel finds them: the flat argument viewed as rows of 128. -/
theorem rows_label (c : Dev nD) : (V m c main_v1 : S262144x128.Idx → Elt F .i32)
    = shapeCast S262144x128 (m ((c : Thread nD τ).loc main_arg1)) Facts₀.shapeCasts_S33554432_S262144x128 := by
  show StableHlo.after hostOps0 (fun b => m (c, b)) (Proc.devRef .tc main_v1) = _
  after_results
  rfl

/-- The tile of predictions at a grid position, and the tile of labels. -/
abbrev pblk (c : Dev nD) (t : Fin cfg0.N) : Vec F S8192x128 .f32 := iblk m c 0 t
abbrev tblk (c : Dev nD) (t : Fin cfg0.N) : Vec F S8192x128 .i32 := iblk m c 1 t

/-- Entry (r, l) of the prediction tile at position `k` is the argument at (8192·k + r)·128 + l. -/
theorem pblk_apply (c : Dev nD) (t : Fin cfg0.N) (y : S8192x128.Idx) :
    pblk m c t y = m ((c : Thread nD τ).loc main_arg0) (flat ⟨t.val, lt_of_lt_of_eq t.isLt N_0⟩ y) := by
  show ((cfg0.win 0).blk t).view.read (Elt F) (V m c main_v0) y = _
  rw [View.read_apply]
  show V m c main_v0 (((cfg0.win 0).blk t).view.emb y) = _
  refine (congrFun (rows_pred m c) _).trans ?_
  refine shapeCast_apply _ _ _ _ ?_
  show (S33554432.rowMajor (flat ⟨t.val, lt_of_lt_of_eq t.isLt N_0⟩ y)).val = (S262144x128.rowMajor (((cfg0.win 0).blk t).view.emb y)).val
  rw [Shape.rowMajor_val_one, Shape.rowMajor_val_two]
  have h0 : (((cfg0.win 0).blk t).view.emb y (0 : Fin 2)).val = win0_0.index t (0 : Fin 2) * 8192 + 1 * (y 0).val := rfl
  have h1 : (((cfg0.win 0).blk t).view.emb y (1 : Fin 2)).val = win0_0.index t (1 : Fin 2) * 128 + 1 * (y 1).val := rfl
  rw [h0, h1, (block_index0 t).1, (block_index0 t).2]
  show (8192 * t.val + (y 0).val) * 128 + (y 1).val = _
  show _ = (t.val * 8192 + 1 * (y 0).val) * 128 + (0 * 128 + 1 * (y 1).val)
  omega

/-- Entry (r, l) of the label tile at position `k` is the argument at (8192·k + r)·128 + l. -/
theorem tblk_apply (c : Dev nD) (t : Fin cfg0.N) (y : S8192x128.Idx) :
    tblk m c t y = m ((c : Thread nD τ).loc main_arg1) (flat ⟨t.val, lt_of_lt_of_eq t.isLt N_0⟩ y) := by
  show ((cfg0.win 1).blk t).view.read (Elt F) (V m c main_v1) y = _
  rw [View.read_apply]
  show V m c main_v1 (((cfg0.win 1).blk t).view.emb y) = _
  refine (congrFun (rows_label m c) _).trans ?_
  refine shapeCast_apply _ _ _ _ ?_
  show (S33554432.rowMajor (flat ⟨t.val, lt_of_lt_of_eq t.isLt N_0⟩ y)).val = (S262144x128.rowMajor (((cfg0.win 1).blk t).view.emb y)).val
  rw [Shape.rowMajor_val_one, Shape.rowMajor_val_two]
  have h0 : (((cfg0.win 1).blk t).view.emb y (0 : Fin 2)).val = win0_1.index t (0 : Fin 2) * 8192 + 1 * (y 0).val := rfl
  have h1 : (((cfg0.win 1).blk t).view.emb y (1 : Fin 2)).val = win0_1.index t (1 : Fin 2) * 128 + 1 * (y 1).val := rfl
  rw [h0, h1, (block_index1 t).1, (block_index1 t).2]
  show (8192 * t.val + (y 0).val) * 128 + (y 1).val = _
  show _ = (t.val * 8192 + 1 * (y 0).val) * 128 + (0 * 128 + 1 * (y 1).val)
  omega

end Cert.KernelIdeal.Blocks

end
-- ==== Proof.Accum.lean ====
/-
  The accumulator across the grid, and the number the kernel writes out.

  Tile `k`'s total is the sum of the contributions of the flat positions (8192·k + r)·128 + l. After grid position
  `n` the accumulator holds the totals of tiles 0 … n added up (position 0 starts from the reset's zero); this is an
  induction on the position, each step one update. At the last position the output buffer receives that sum of all
  thirty-two totals divided by 2²⁵, and the thirty-two totals are the sum over the whole flat array.
-/
import proofs.«148448_j4002909520771_1_alg».proof.Proof.Pieces
import proofs.«148448_j4002909520771_1_alg».proof.Proof.Payload
import proofs.«148448_j4002909520771_1_alg».proof.Proof.Blocks

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.WMse Cert.KernelIdeal.Blocks

variable (m : (ℓ : Loc nD τ sig) → Buf (Elt Ideal) ℓ)

/-- Tile `k`'s total: the contributions of its 8192 × 128 flat positions, summed. -/
def tileSum (c : Dev nD) (k : Fin 32) : EReal :=
  ∑ y : S8192x128.Idx, wl (F := Ideal) (m ((c : Thread nD τ).loc main_arg0) (flat k y)) (m ((c : Thread nD τ).loc main_arg1) (flat k y))

/-- The same by a natural number (zero past the grid), so that running sums are sums over a range. -/
def tileAt (c : Dev nD) (k : ℕ) : EReal := if h : k < 32 then tileSum m c ⟨k, h⟩ else 0

/-- One update at grid position `t`: what the accumulator held, plus tile `t`'s total. -/
theorem update_at (c : Dev nD) (t : Fin cfg0.N) (xs : Vec Ideal S1x1 .f32) (y : S1x1.Idx) :
    k0_pay2 (F := Ideal) (pblk m c t) (tblk m c t) xs y = xs y + tileAt m c t.val := by
  refine (Payload.update_apply _ _ xs y).trans ?_
  refine congrArg (xs y + ·) ?_
  unfold tileAt
  rw [dif_pos (lt_of_lt_of_eq t.isLt N_0)]
  exact Finset.sum_congr rfl fun j _ => by rw [pblk_apply, tblk_apply]

/-- After position `n` the accumulator holds tiles 0 … n added up. -/
theorem acc_eq (c : Dev nD) : ∀ (n : ℕ) (h : n < cfg0.N),
    (outsAt0 m c n h).2 = fun _ => ∑ k ∈ Finset.range (n + 1), tileAt m c k
  | 0, h => by
    rw [show outsAt0 m c 0 h = _ from outsAt0_A m c ⟨0, h⟩ rfl (show ¬(0 : ℕ) % 32 = 31 by decide)]
    dsimp only
    refine (Pieces.acc_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)).trans ?_
    funext y
    refine (update_at m c ⟨0, h⟩ _ y).trans ?_
    rw [Payload.reset_apply, zero_add, Finset.sum_range_one]
  | n + 1, h => by
    have hN : cfg0.N = 32 := N_0
    have h0 : ¬(⟨n + 1, h⟩ : Fin cfg0.N).val % 32 = 0 := by dsimp only; omega
    have ih := acc_eq c n (Nat.lt_of_succ_lt h)
    by_cases h1 : (⟨n + 1, h⟩ : Fin cfg0.N).val % 32 = 31
    · rw [show outsAt0 m c (n + 1) h = _ from outsAt0_C m c ⟨n + 1, h⟩ h0 h1]
      dsimp only
      refine (Pieces.acc_last (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      funext y
      refine (update_at m c ⟨n + 1, h⟩ _ y).trans ?_
      rw [Finset.sum_range_succ _ (n + 1)]
      exact congrArg (· + tileAt m c (n + 1)) (congrFun ih y)
    · rw [show outsAt0 m c (n + 1) h = _ from outsAt0_B m c ⟨n + 1, h⟩ h0 h1]
      dsimp only
      refine (Pieces.acc_middle (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      funext y
      refine (update_at m c ⟨n + 1, h⟩ _ y).trans ?_
      rw [Finset.sum_range_succ _ (n + 1)]
      exact congrArg (· + tileAt m c (n + 1)) (congrFun ih y)

/-- The number the kernel writes out: all thirty-two tile totals added up, divided by 2²⁵. -/
def result (c : Dev nD) : EReal :=
  FloatOps.hostDivf (F := Ideal) (φ := .f32) (∑ k ∈ Finset.range 32, tileAt m c k) (FloatOps.ofBits .f32 0x4C000000#32)

/-- At the last position the output buffer holds it. -/
theorem out_eq (c : Dev nD) (h : 31 < cfg0.N) : (outsAt0 m c 31 h).1 = fun _ => result m c := by
  have h0 : ¬(⟨31, h⟩ : Fin cfg0.N).val % 32 = 0 := show ¬(31 : ℕ) % 32 = 0 by decide
  have h1 : (⟨31, h⟩ : Fin cfg0.N).val % 32 = 31 := rfl
  rw [show outsAt0 m c 31 h = _ from outsAt0_C m c ⟨31, h⟩ h0 h1]
  dsimp only
  refine (Pieces.out_last (F := Ideal) c (grid0.coords ⟨31, h⟩) (ms0_0 ⟨31, h⟩) (hs0_0 ⟨31, h⟩) (ms0_1 ⟨31, h⟩) (hs0_1 ⟨31, h⟩)
    (ms0_2 ⟨31, h⟩) (hs0_2 ⟨31, h⟩) scM0_0 (Memref.isWhole_whole _) _ _ (iblk m c 0 ⟨31, h⟩) (iblk m c 1 ⟨31, h⟩)
    (outsAt0 m c 30 (Nat.lt_of_succ_lt h)).2).trans ?_
  funext y
  refine (Payload.final_apply _ y).trans ?_
  unfold result
  refine congrArg (fun z => FloatOps.hostDivf (F := Ideal) (φ := .f32) z (FloatOps.ofBits .f32 0x4C000000#32)) ?_
  refine (update_at m c ⟨31, h⟩ _ y).trans ?_
  rw [Finset.sum_range_succ _ 31]
  exact congrArg (· + tileAt m c 31) (congrFun (acc_eq m c 30 (Nat.lt_of_succ_lt h)) y)

/-- The thirty-two tile totals are the sum over the whole flat array. -/
theorem total_eq (c : Dev nD) :
    ∑ k ∈ Finset.range 32, tileAt m c k
      = ∑ i : S33554432.Idx, wl (F := Ideal) (m ((c : Thread nD τ).loc main_arg0) i) (m ((c : Thread nD τ).loc main_arg1) i) := by
  rw [← Fin.sum_univ_eq_sum_range (fun k => tileAt m c k) 32,
    ← sum_tiles (fun i => wl (F := Ideal) (m ((c : Thread nD τ).loc main_arg0) i) (m ((c : Thread nD τ).loc main_arg1) i))]
  exact Finset.sum_congr rfl fun k _ => by unfold tileAt; rw [dif_pos k.isLt]; rfl

end Cert.KernelIdeal.Acc

end
-- ==== Proof.Final.lean ====
/-
  The kernel's result, as contents of its result buffers.

  The 1 × 1 output array is written back once, after the last grid position, with the number computed there (the sum
  of all tile totals divided by 2²⁵); that single write-back covers the array's single position, so the array ends
  holding it. The program then views the 1 × 1 array as a scalar, which holds the same number; the two arguments are
  never written.
-/
import proofs.«148448_j4002909520771_1_alg».proof.Proof.Accum
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.WMse

variable (m : (ℓ : Loc nD τ sig) → Buf (Elt Ideal) ℓ) (ρ : Dev nD → PrngReg)

/-- The last grid position, the only one after which the output is written back. -/
abbrev tLast : Fin cfg0.N := ⟨31, by rw [show cfg0.N = 32 from N_0]; decide⟩

/-- The 1 × 1 output array holding the result at its one position. -/
abbrev outArr (c : Dev nD) : Buf (Elt Ideal) ((c : Thread nD τ).loc main_v2) := fun _ => Acc.result m c

/-- What the one write-back writes is that array read through the (whole-array) block. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2]
  rw [show (outsAt0 m c tLast.val tLast.isLt).1 = _ from Acc.out_eq m c tLast.isLt]
  funext y
  rfl

/-- So the output array ends holding the result: the last position's block is the whole array. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The scalar the program returns is the output array's one entry. -/
theorem tail_eq (c : Dev nD) :
    Pipeline.afterTail₀ cfgs (dats m) 0 (V0 m) [hostOps1] c main_v3 = fun _ => Acc.result m c := by
  unfold Pipeline.afterTail₀
  show StableHlo.after hostOps1 _ (Proc.devRef .tc main_v3) = _
  after_results
  have hW : Pipeline.withArrays (cfgs 0).spec c (V0 m c) (fun w => (dats m 0 c).arrAt w (cfgs 0).N) (Proc.tc.devRef main_v2) = outArr m c :=
    (Pipeline.withArrays_arr spec0 launch0.win.arr_inj c _ _ 2).trans (final_out m c)
  rw [hW]
  rfl

/-- Every execution ends with the returned scalar at the result and both arguments as they were. -/
theorem run : θ_run defs (onTc (τ := τ) (main (F := Ideal))) ⟨m, fun _ => 0, ρ⟩ fun r => ∀ c : Dev nD,
      r.2.mem ((c.tc : Thread nD τ).loc main_v3) = (fun _ => Acc.result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Final
end
-- ==== Proof.RefValue.lean ====
/-
  What the reference computes, read over the extended reals: at its one result position, zero plus the sum over the
  flat array of every element's contribution, divided by 2²⁵. Element by element the reference's chain of whole-array
  operations (convert, subtract, square, compare, select, add one, multiply) is the contribution function; it spells
  the disagreement of the two bits as "not equal" where the kernel spells it as "exclusive or".
-/
import proofs.«148448_j4002909520771_1_alg».proof.Proof.Gen.ReferenceIdeal.Read
import proofs.«148448_j4002909520771_1_alg».proof.Proof.Spec

noncomputable section

open scoped BigOperators

namespace Cert.ReferenceIdeal.RefValue

open Idealize.ShloMosaic Cert.ReferenceIdeal Cert.ReferenceIdeal.Read Cert.WMse

/-- The product the reference sums, at one flat position, is that position's contribution. -/
theorem term_apply (x0 : (⟨S33554432, .f32⟩ : BufTy).Contents (Elt Ideal)) (x1 : (⟨S33554432, .i32⟩ : BufTy).Contents (Elt Ideal))
    (j : S33554432.Idx) : val_main_v12 (F := Ideal) x0 x1 j = wl (F := Ideal) (x0 j) (x1 j) :=
  wl_ne (F := Ideal) (x0 j) (x1 j)

/-- The reference's result: the sum of all contributions, divided by 2²⁵. -/
theorem result_apply (x0 : (⟨S33554432, .f32⟩ : BufTy).Contents (Elt Ideal)) (x1 : (⟨S33554432, .i32⟩ : BufTy).Contents (Elt Ideal))
    (i : S_.Idx) :
    val_main_v14 (F := Ideal) x0 x1 i
      = FloatOps.hostDivf (F := Ideal) (φ := .f32) (∑ j : S33554432.Idx, wl (F := Ideal) (x0 j) (x1 j)) (FloatOps.ofBits .f32 0x4C000000#32) := by
  rw [val_main_v14_apply, val_main_v13_apply, val_main_cst_3_apply, val_main_cst_4_apply]
  refine congrArg (fun z => FloatOps.hostDivf (F := Ideal) (φ := .f32) z (FloatOps.ofBits .f32 0x4C000000#32)) ?_
  rw [Ideal.ofBits_def, Ideal.ofBits_zero_f32, zero_add]
  exact Finset.sum_congr rfl fun j _ => term_apply x0 x1 j

end Cert.ReferenceIdeal.RefValue

end
-- ==== Proof.lean ====
/-
  The weighted mean squared error: a tiled kernel that streams two flat arrays of 2²⁵ numbers through 32 tiles of
  8192 × 128, accumulating each tile's sum of  (1 + 0.1·[the decision p ≥ 0.5 disagrees with the label t = 1]) · (p − t)²
  in a one-number scratch and dividing by 2²⁵ after the last tile, against the reference's mean of the same products
  over the flat arrays.

  Over the extended reals both programs compute  (Σᵢ wᵢ · (pᵢ − tᵢ)²) / 2²⁵:  the kernel's thirty-two tile totals,
  added in grid order onto a zero, regroup the reference's single sum (addition there is commutative and
  associative, with no condition on the inputs), and the two divisors are the same constant. The three frames are the
  generated ones (the reference's is its generated run with the result dropped); the idealization rewrote nothing.
-/
import proofs.«148448_j4002909520771_1_alg».proof.Defs
import proofs.«148448_j4002909520771_1_alg».proof.Proof.Gen.Kernel
import proofs.«148448_j4002909520771_1_alg».proof.Proof.Gen.Kernel.Skeleton
import proofs.«148448_j4002909520771_1_alg».proof.Proof.Gen.Kernel.Launch
import proofs.«148448_j4002909520771_1_alg».proof.Proof.Gen.Kernel.Points
import proofs.«148448_j4002909520771_1_alg».proof.Proof.Gen.Kernel.Frame
import proofs.«148448_j4002909520771_1_alg».proof.Proof.Gen.KernelIdeal
import proofs.«148448_j4002909520771_1_alg».proof.Proof.Gen.KernelIdeal.Skeleton
import proofs.«148448_j4002909520771_1_alg».proof.Proof.Gen.KernelIdeal.Launch
import proofs.«148448_j4002909520771_1_alg».proof.Proof.Gen.KernelIdeal.Points
import proofs.«148448_j4002909520771_1_alg».proof.Proof.Gen.KernelIdeal.Frame
import proofs.«148448_j4002909520771_1_alg».proof.Proof.Gen.ReferenceIdeal
import proofs.«148448_j4002909520771_1_alg».proof.Proof.Gen.ReferenceIdeal.Run
import proofs.«148448_j4002909520771_1_alg».proof.Proof.Gen.ReferenceIdeal.Read
import proofs.«148448_j4002909520771_1_alg».proof.Proof.Gen.Pre_finite_inputs
import proofs.«148448_j4002909520771_1_alg».proof.Proof.Final
import proofs.«148448_j4002909520771_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the sum of all contributions divided by 2²⁵: the kernel's as thirty-two tile totals added
    up, the reference's as zero plus one sum over the flat array; the regrouping is `Acc.total_eq`. -/
theorem algebraic : Cert.algebraic_KernelIdeal_ReferenceIdeal := by
  intro m ρ m' ρ' _ hagree
  refine ⟨fun c => (fun _ => Cert.KernelIdeal.Acc.result m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq]
  funext i
  rw [Cert.ReferenceIdeal.RefValue.result_apply, (hagree c).1, (hagree c).2]
  show _ = Cert.KernelIdeal.Acc.result m c
  unfold Cert.KernelIdeal.Acc.result
  rw [Cert.KernelIdeal.Acc.total_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
